-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x15x256x256 : Shape := ⟨4, ![16, 15, 256, 256]⟩
abbrev S_ : Shape := ⟨0, ![]⟩

class Facts : Prop where
  bcast_S_S16x15x256x256 : S_.BroadcastsInDim S16x15x256x256 (![] : Fin 0 → Fin S16x15x256x256.rank)
  reducesTo_S16x15x256x256_S_d0_1_2_3 : S16x15x256x256.ReducesTo [0, 1, 2, 3] S_
  h_S_ : 0 < S_.numel

variable [Facts]

def fn {F : FTy → Type} [FloatOps F] (main_arg0 : FVec F S16x15x256x256 .f32) (main_arg1 : FVec F S16x15x256x256 .f32) (main_arg2 : FVec F S16x15x256x256 .f32) : IVec S_ 1 :=
  let main_v0 : FVec F S16x15x256x256 .f32 := Host.absf main_arg0
  let main_cst : FVec F S_ .f32 := constant S_ .f32 0x7F800000#32
  let main_v1 : FVec F S16x15x256x256 .f32 := broadcastInDim S16x15x256x256 ![] bcast_S_S16x15x256x256 main_cst
  let main_v2 : IVec S16x15x256x256 1 := cmpf .olt main_v0 main_v1
  let main_c : IVec S_ 1 := constantI S_ 1 1#1
  let main_v3 : IVec S_ 1 := (fun x v => Host.reduce IntOp.andi x v reducesTo_S16x15x256x256_S_d0_1_2_3 h_S_) main_v2 main_c
  let main_v4 : FVec F S16x15x256x256 .f32 := Host.absf main_arg1
  let main_cst_0 : FVec F S_ .f32 := constant S_ .f32 0x7F800000#32
  let main_v5 : FVec F S16x15x256x256 .f32 := broadcastInDim S16x15x256x256 ![] bcast_S_S16x15x256x256 main_cst_0
  let main_v6 : IVec S16x15x256x256 1 := cmpf .olt main_v4 main_v5
  let main_c_1 : IVec S_ 1 := constantI S_ 1 1#1
  let main_v7 : IVec S_ 1 := (fun x v => Host.reduce IntOp.andi x v reducesTo_S16x15x256x256_S_d0_1_2_3 h_S_) main_v6 main_c_1
  let main_v8 : IVec S_ 1 := andi main_v3 main_v7
  let main_v9 : FVec F S16x15x256x256 .f32 := Host.absf main_arg2
  let main_cst_2 : FVec F S_ .f32 := constant S_ .f32 0x7F800000#32
  let main_v10 : FVec F S16x15x256x256 .f32 := broadcastInDim S16x15x256x256 ![] bcast_S_S16x15x256x256 main_cst_2
  let main_v11 : IVec S16x15x256x256 1 := cmpf .olt main_v9 main_v10
  let main_c_3 : IVec S_ 1 := constantI S_ 1 1#1
  let main_v12 : IVec S_ 1 := (fun x v => Host.reduce IntOp.andi x v reducesTo_S16x15x256x256_S_d0_1_2_3 h_S_) main_v11 main_c_3
  let main_v13 : IVec S_ 1 := andi main_v8 main_v12
  main_v13
-- ==== Kernel.lean ====
abbrev S16x15x256x256 : Shape := ⟨4, ![16, 15, 256, 256]⟩
abbrev S61440x256 : Shape := ⟨2, ![61440, 256]⟩
abbrev S1x1 : Shape := ⟨2, ![1, 1]⟩
abbrev S4096x256 : Shape := ⟨2, ![4096, 256]⟩
abbrev S1x4096x256 : Shape := ⟨3, ![1, 4096, 256]⟩
abbrev S1 : Shape := ⟨1, ![1]⟩
abbrev S1x1x1 : Shape := ⟨3, ![1, 1, 1]⟩
abbrev S_ : Shape := ⟨0, ![]⟩

abbrev nBuf : Space → Nat
  | .hbm => 19
  | .vmem => 10
  | .smem => 0
  | _ => 0

abbrev bufTy : (tb : Table) → Fin (tcTables nBuf tb) → BufTy
  | .hbm, ⟨0, _⟩ => ⟨S16x15x256x256, .f32⟩
  | .hbm, ⟨1, _⟩ => ⟨S16x15x256x256, .f32⟩
  | .hbm, ⟨2, _⟩ => ⟨S16x15x256x256, .f32⟩
  | .hbm, ⟨3, _⟩ => ⟨S61440x256, .f32⟩
  | .hbm, ⟨4, _⟩ => ⟨S61440x256, .f32⟩
  | .hbm, ⟨5, _⟩ => ⟨S61440x256, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S16x15x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c14_i32 : BitVec 32 := 14#32
  let v36 : BitVec 1 := Scalar.cmpi .eq arg0 c14_i32
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16x15x256x256_S61440x256 : S16x15x256x256.ShapeCasts S61440x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  natLt_1_32 : 1 < 32
  shapeCasts_S4096x256_S1x4096x256 : S4096x256.ShapeCasts S1x4096x256
  reduces_S1x4096x256_S1 : S1x4096x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S61440x256.size a
  hwx0_0 : ∀ i : grid0.Coords, EltTy.bits .f32 = 32 ∨ (Rect.block (s := S61440x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S61440x256.size a
  hwx0_1 : ∀ i : grid0.Coords, EltTy.bits .f32 = 32 ∨ (Rect.block (s := S61440x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S61440x256.size a
  hwx0_2 : ∀ i : grid0.Coords, EltTy.bits .f32 = 32 ∨ (Rect.block (s := S61440x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x15x256x256 : Shape := ⟨4, ![16, 15, 256, 256]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x15x256x256, .f32⟩
  | .hbm, ⟨1, _⟩ => ⟨S16x15x256x256, .f32⟩
  | .hbm, ⟨2, _⟩ => ⟨S16x15x256x256, .f32⟩
  | .hbm, ⟨3, _⟩ => ⟨S16x15x256x256, .f32⟩
  | .hbm, ⟨4, _⟩ => ⟨S16x15x256x256, .f32⟩
  | .hbm, ⟨5, _⟩ => ⟨S16x15x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x15x256x256, .f32⟩
  | .hbm, ⟨10, _⟩ => ⟨S16x15x256x256, .i1⟩
  | .hbm, ⟨11, _⟩ => ⟨S16x15x256x256, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .i32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | _, _ => ⟨S16x15x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  reducesTo_S16x15x256x256_S_d0_1_2_3 : S16x15x256x256.ReducesTo [0, 1, 2, 3] S_
  h_S_ : 0 < S_.numel
  bcast_S_S16x15x256x256 : S_.BroadcastsInDim S16x15x256x256 (![] : Fin 0 → Fin S16x15x256x256.rank)
  natLt_1_32 : 1 < 32

variable [Facts₀]

class Facts : Prop extends Facts₀ where

variable [Facts]
-- ==== Proof.CaseValues.lean ====
/-
  What each control case of the kernel body leaves behind, as VALUES.

  The body keeps two 1×1 accumulators in scratch memory: the running sum of |output − label0| · label1 and the
  running count of nonzero label0 entries. At every grid point it adds the current row block's contribution to each
  (the pure terms `k0_pay4`, `k0_pay5` of the block and the accumulator read before the store). At the first point it
  first stores zero into both, so there the accumulator read is that zero (`k0_pay1`, `k0_pay2`). At the last point it
  also copies both accumulators, as just updated, to the two 1×1 outputs.
-/
import proofs.«132748_j50663434224037_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz : (![0, 0] : Fin 2 → Nat) = fun _ => 0 := funext fun a => by fin_cases a <;> rfl

/-! ## The first point: reset, then accumulate -/

/-- The loss accumulator after the first point: the block's contribution added to the zero just stored. -/
theorem first_loss (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 x1 x2 : Vec F S4096x256 .f32) :
    sout0_A_0 c i a1 h1 a2 h2 a3 h3 a4 h4 a5 h5 a6 h6 a7 h7 hc0 hc1 x0 x1 x2 = k0_pay4 x0 x1 x2 k0_pay1 := by
  unfold sout0_A_0
  rw [View.read_writes_eq_canon _ _ _ (scover0_A_0 c i a1 h1 a2 h2 a3 h3 a4 h4 a5 h5 a6 h6 a7 h7 hc0 hc1 x0 x1 x2)]
  unfold kernelRun0_A
  dsimp only
  sl_unfold_words
  rw [View.canon_cons_unit_zero (S := S1x1) hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

/-- The count accumulator after the first point, likewise. -/
theorem first_count (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 x1 x2 : Vec F S4096x256 .f32) :
    sout0_A_1 c i a1 h1 a2 h2 a3 h3 a4 h4 a5 h5 a6 h6 a7 h7 hc0 hc1 x0 x1 x2 = k0_pay5 x1 k0_pay2 := by
  unfold sout0_A_1
  rw [View.read_writes_eq_canon _ _ _ (scover0_A_1 c i a1 h1 a2 h2 a3 h3 a4 h4 a5 h5 a6 h6 a7 h7 hc0 hc1 x0 x1 x2)]
  unfold kernelRun0_A
  dsimp only
  sl_unfold_words
  rw [View.canon_cons_unit_zero (S := S1x1) hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

/-! ## A middle point: accumulate onto what the point before left -/

theorem middle_loss (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 x1 x2 : Vec F S4096x256 .f32) (xs0 xs1 : Vec F S1x1 .f32) :
    sout0_B_0 c i a1 h1 a2 h2 a3 h3 a4 h4 a5 h5 a6 h6 a7 h7 hc0 hc1 x0 x1 x2 xs0 xs1 = k0_pay4 x0 x1 x2 xs0 := by
  unfold sout0_B_0
  rw [View.read_writes_eq_canon _ _ _ (scover0_B_0 c i a1 h1 a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

theorem middle_count (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 x1 x2 : Vec F S4096x256 .f32) (xs0 xs1 : Vec F S1x1 .f32) :
    sout0_B_1 c i a1 h1 a2 h2 a3 h3 a4 h4 a5 h5 a6 h6 a7 h7 hc0 hc1 x0 x1 x2 xs0 xs1 = k0_pay5 x1 xs1 := by
  unfold sout0_B_1
  rw [View.read_writes_eq_canon _ _ _ (scover0_B_1 c i a1 h1 a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

/-! ## The last point: accumulate, then copy both accumulators out -/

theorem last_loss (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4096x256 .f32) (xs0 xs1 : Vec F S1x1 .f32) :
    sout0_C_0 c i a1 h1 a2 h2 a3 h3 a4 h4 a5 h5 a6 h6 a7 h7 hc0 hc1 x0 x1 x2 xs0 xs1 = k0_pay4 x0 x1 x2 xs0 := by
  unfold sout0_C_0
  rw [View.read_writes_eq_canon _ _ _ (scover0_C_0 c i a1 h1 a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

theorem last_count (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4096x256 .f32) (xs0 xs1 : Vec F S1x1 .f32) :
    sout0_C_1 c i a1 h1 a2 h2 a3 h3 a4 h4 a5 h5 a6 h6 a7 h7 hc0 hc1 x0 x1 x2 xs0 xs1 = k0_pay5 x1 xs1 := by
  unfold sout0_C_1
  rw [View.read_writes_eq_canon _ _ _ (scover0_C_1 c i a1 h1 a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

/-- The first output after the last point: the loss accumulator as just updated. -/
theorem last_out_loss (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4096x256 .f32) (xs0 xs1 : Vec F S1x1 .f32) :
    out0_C_3 c i a1 h1 a2 h2 a3 h3 a4 h4 a5 h5 a6 h6 a7 h7 hc0 hc1 x0 x1 x2 xs0 xs1 = k0_pay4 x0 x1 x2 xs0 := by
  unfold out0_C_3
  rw [View.read_writes_eq_canon _ _ _ (cover0_C_3 c i a1 h1 a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

/-- The second output after the last point: the count accumulator as just updated. -/
theorem last_out_count (c : Dev nD) (i : grid0.Coords) (a1 : Memref sig .tc .vmem S4096x256 .f32) (h1 : a1.IsWhole) (a2 : Memref sig .tc .vmem S4096x256 .f32) (h2 : a2.IsWhole) (a3 : Memref sig .tc .vmem S4096x256 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4096x256 .f32) (xs0 xs1 : Vec F S1x1 .f32) :
    out0_C_4 c i a1 h1 a2 h2 a3 h3 a4 h4 a5 h5 a6 h6 a7 h7 hc0 hc1 x0 x1 x2 xs0 xs1 = k0_pay5 x1 xs1 := by
  unfold out0_C_4
  rw [View.read_writes_eq_canon _ _ _ (cover0_C_4 c i a1 h1 a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h1.read_unread, h2.read_unread, h3.read_unread, h6.read_unread, h7.read_unread, View.ld_unit_zero (S := S4096x256) hz, View.ld_unit_zero (S := S1x1) hz, View.readCov_unit_zero (S := S1x1) _ hz]

end Cert.KernelIdeal.CaseValues

end
-- ==== Proof.Accumulate.lean ====
/-
  The kernel's two accumulators, point by point, and what its two 1×1 result arrays end holding.

  After grid point `n` the loss accumulator holds the row blocks' contributions added in point order onto the zero
  stored at the first point, `(((0 + b₀) + b₁) + … ) + bₙ` (`lossAfter`), and the count accumulator likewise
  (`countAfter`); this is an induction on the point over the three control cases. The outputs are stored at the last
  point only, as copies of the accumulators just updated, and written back there: each result array's single block is
  the whole array, so the arrays end at `lossAfter` / `countAfter` of the last point.
-/
import proofs.«132748_j50663434224037_1_alg».proof.Proof.CaseValues

noncomputable section

open Idealize.ShloMosaic Idealize.ShloMosaic.TcCoe Idealize.SL.Sem
open Idealize.ShloMosaic.Pipeline (Dat)

namespace Cert.KernelIdeal.Accumulate

open Cert.KernelIdeal Cert.KernelIdeal.Gen Cert.KernelIdeal.CaseValues

variable {F : FTy → Type} [FloatOps F]
variable (m : (ℓ : Loc nD τ sig) → Buf (Elt F) ℓ) (ρ : Dev nD → PrngReg)

/-- Row block `t` of the three (re-laid) input arrays, at its literal type. -/
abbrev outBlk (c : Dev nD) (t : Fin cfg0.N) : Vec F S4096x256 .f32 := iblk m c 0 t
abbrev lab0Blk (c : Dev nD) (t : Fin cfg0.N) : Vec F S4096x256 .f32 := iblk m c 1 t
abbrev lab1Blk (c : Dev nD) (t : Fin cfg0.N) : Vec F S4096x256 .f32 := iblk m c 2 t

/-- The loss accumulator after point `n`: block `n`'s contribution added onto what point `n − 1` left (onto the stored
    zero at the first point). -/
def lossAfter (c : Dev nD) : (n : ℕ) → n < cfg0.N → Vec F S1x1 .f32
  | 0, h => k0_pay4 (outBlk m c ⟨0, h⟩) (lab0Blk m c ⟨0, h⟩) (lab1Blk m c ⟨0, h⟩) k0_pay1
  | n + 1, h => k0_pay4 (outBlk m c ⟨n + 1, h⟩) (lab0Blk m c ⟨n + 1, h⟩) (lab1Blk m c ⟨n + 1, h⟩) (lossAfter c n (Nat.lt_of_succ_lt h))

/-- The count accumulator after point `n`, likewise. -/
def countAfter (c : Dev nD) : (n : ℕ) → n < cfg0.N → Vec F S1x1 .f32
  | 0, h => k0_pay5 (lab0Blk m c ⟨0, h⟩) k0_pay2
  | n + 1, h => k0_pay5 (lab0Blk m c ⟨n + 1, h⟩) (countAfter c n (Nat.lt_of_succ_lt h))

/-- What the two scratch accumulators hold after point `n` is the running sum and the running count: by induction on
    the point. The first point is the reset case; every later point, last included, adds onto its predecessor. -/
theorem scratch_eq (c : Dev nD) : ∀ (n : ℕ) (h : n < cfg0.N),
    (outsAt0 m c n h).2.2.1 = lossAfter m c n h ∧ (outsAt0 m c n h).2.2.2 = countAfter m c n h
  | 0, h => by
    have h0 : (⟨0, h⟩ : Fin cfg0.N).val % 15 = 0 := rfl
    have h1 : ¬(⟨0, h⟩ : Fin cfg0.N).val % 15 = 14 := by show ¬((0 : ℕ) % 15 = 14); decide
    constructor
    · rw [outsAt0_A m c (⟨0, h⟩ : Fin cfg0.N) h0 h1]; dsimp only
      exact first_loss c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N))
    · rw [outsAt0_A m c (⟨0, h⟩ : Fin cfg0.N) h0 h1]; dsimp only
      exact first_count c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N))
  | n + 1, h => by
    have hN : cfg0.N = 15 := N_0
    have ih := scratch_eq c n (Nat.lt_of_succ_lt h)
    have h0 : ¬(⟨n + 1, h⟩ : Fin cfg0.N).val % 15 = 0 := by dsimp only; omega
    have eL : lossAfter m c (n + 1) h = k0_pay4 (outBlk m c ⟨n + 1, h⟩) (lab0Blk m c ⟨n + 1, h⟩) (lab1Blk m c ⟨n + 1, h⟩) (lossAfter m c n (Nat.lt_of_succ_lt h)) := rfl
    have eC : countAfter m c (n + 1) h = k0_pay5 (lab0Blk m c ⟨n + 1, h⟩) (countAfter m c n (Nat.lt_of_succ_lt h)) := rfl
    rw [eL, eC, ← ih.1, ← ih.2]
    by_cases h1 : (⟨n + 1, h⟩ : Fin cfg0.N).val % 15 = 14
    · constructor
      · rw [outsAt0_C m c (⟨n + 1, h⟩ : Fin cfg0.N) h0 h1]; dsimp only
        exact last_loss c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
      · rw [outsAt0_C m c (⟨n + 1, h⟩ : Fin cfg0.N) h0 h1]; dsimp only
        exact last_count c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
    · constructor
      · rw [outsAt0_B m c (⟨n + 1, h⟩ : Fin cfg0.N) h0 h1]; dsimp only
        exact middle_loss c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
      · rw [outsAt0_B m c (⟨n + 1, h⟩ : Fin cfg0.N) h0 h1]; dsimp only
        exact middle_count c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

end Cert.KernelIdeal.Accumulate

end
-- ==== Proof.ResultArrays.lean ====
/-
  What the kernel's program returns, as a term of its two accumulators.

  The two 1×1 result arrays are written back at the last grid point only, and that one block is the whole array:
  they end holding the loss and count accumulators after the last point. The host lines after the call re-lay both
  as scalars and form "loss / count, or 0 / 1 when the count is 0.0" (`quotientOf`).
-/
import proofs.«132748_j50663434224037_1_alg».proof.Proof.Accumulate
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.CaseValues Cert.KernelIdeal.Accumulate

variable {F : FTy → Type} [FloatOps F]
variable (m : (ℓ : Loc nD τ sig) → Buf (Elt F) ℓ) (ρ : Dev nD → PrngReg)

theorem h14 : 14 < cfg0.N := by rw [show cfg0.N = 15 from N_0]; decide

/-- The accumulators after the last point, as contents of the two result arrays. -/
abbrev lossArr (c : Dev nD) : Buf (Elt F) ((c : Thread nD τ).loc main_v3_0) := lossAfter m c 14 h14
abbrev countArr (c : Dev nD) : Buf (Elt F) ((c : Thread nD τ).loc main_v3_1) := countAfter m c 14 h14

/-- At the last point the body copies the accumulators, as just updated, into the outputs' staging buffers. -/
theorem outputs_eq (c : Dev nD) :
    (outsAt0 m c 14 h14).1 = lossAfter m c 14 h14 ∧ (outsAt0 m c 14 h14).2.1 = countAfter m c 14 h14 := by
  have h0 : ¬(⟨14, h14⟩ : Fin cfg0.N).val % 15 = 0 := by decide
  have h1 : (⟨14, h14⟩ : Fin cfg0.N).val % 15 = 14 := rfl
  have eL : lossAfter m c 14 h14 = k0_pay4 (outBlk m c ⟨14, h14⟩) (lab0Blk m c ⟨14, h14⟩) (lab1Blk m c ⟨14, h14⟩) (lossAfter m c 13 (Nat.lt_of_succ_lt h14)) := rfl
  have eC : countAfter m c 14 h14 = k0_pay5 (lab0Blk m c ⟨14, h14⟩) (countAfter m c 13 (Nat.lt_of_succ_lt h14)) := rfl
  rw [eL, eC, ← (scratch_eq m c 13 (Nat.lt_of_succ_lt h14)).1, ← (scratch_eq m c 13 (Nat.lt_of_succ_lt h14)).2]
  constructor
  · rw [outsAt0_C m c (⟨14, h14⟩ : Fin cfg0.N) h0 h1]; dsimp only
    exact last_out_loss c (grid0.coords (⟨14, h14⟩ : Fin cfg0.N)) (ms0_0 (⟨14, h14⟩ : Fin cfg0.N)) (hs0_0 (⟨14, h14⟩ : Fin cfg0.N)) (ms0_1 (⟨14, h14⟩ : Fin cfg0.N)) (hs0_1 (⟨14, h14⟩ : Fin cfg0.N)) (ms0_2 (⟨14, h14⟩ : Fin cfg0.N)) (hs0_2 (⟨14, h14⟩ : Fin cfg0.N)) (ms0_3 (⟨14, h14⟩ : Fin cfg0.N)) (hs0_3 (⟨14, h14⟩ : Fin cfg0.N)) (ms0_4 (⟨14, h14⟩ : Fin cfg0.N)) (hs0_4 (⟨14, h14⟩ : Fin cfg0.N)) scM0_0 (Memref.isWhole_whole _) scM0_1 (Memref.isWhole_whole _) (fun hh => h0 ((hcond0_0 (⟨14, h14⟩ : Fin cfg0.N)).mp hh)) ((hcond0_1 (⟨14, h14⟩ : Fin cfg0.N)).mpr h1) (iblk m c 0 (⟨14, h14⟩ : Fin cfg0.N)) (iblk m c 1 (⟨14, h14⟩ : Fin cfg0.N)) (iblk m c 2 (⟨14, h14⟩ : Fin cfg0.N)) (outsAt0 m c ((⟨14, h14⟩ : Fin cfg0.N).val - 1) (Nat.lt_of_le_of_lt (Nat.sub_le _ _) (⟨14, h14⟩ : Fin cfg0.N).isLt)).2.2.1 (outsAt0 m c ((⟨14, h14⟩ : Fin cfg0.N).val - 1) (Nat.lt_of_le_of_lt (Nat.sub_le _ _) (⟨14, h14⟩ : Fin cfg0.N).isLt)).2.2.2
  · rw [outsAt0_C m c (⟨14, h14⟩ : Fin cfg0.N) h0 h1]; dsimp only
    exact last_out_count c (grid0.coords (⟨14, h14⟩ : Fin cfg0.N)) (ms0_0 (⟨14, h14⟩ : Fin cfg0.N)) (hs0_0 (⟨14, h14⟩ : Fin cfg0.N)) (ms0_1 (⟨14, h14⟩ : Fin cfg0.N)) (hs0_1 (⟨14, h14⟩ : Fin cfg0.N)) (ms0_2 (⟨14, h14⟩ : Fin cfg0.N)) (hs0_2 (⟨14, h14⟩ : Fin cfg0.N)) (ms0_3 (⟨14, h14⟩ : Fin cfg0.N)) (hs0_3 (⟨14, h14⟩ : Fin cfg0.N)) (ms0_4 (⟨14, h14⟩ : Fin cfg0.N)) (hs0_4 (⟨14, h14⟩ : Fin cfg0.N)) scM0_0 (Memref.isWhole_whole _) scM0_1 (Memref.isWhole_whole _) (fun hh => h0 ((hcond0_0 (⟨14, h14⟩ : Fin cfg0.N)).mp hh)) ((hcond0_1 (⟨14, h14⟩ : Fin cfg0.N)).mpr h1) (iblk m c 0 (⟨14, h14⟩ : Fin cfg0.N)) (iblk m c 1 (⟨14, h14⟩ : Fin cfg0.N)) (iblk m c 2 (⟨14, h14⟩ : Fin cfg0.N)) (outsAt0 m c ((⟨14, h14⟩ : Fin cfg0.N).val - 1) (Nat.lt_of_le_of_lt (Nat.sub_le _ _) (⟨14, h14⟩ : Fin cfg0.N).isLt)).2.2.1 (outsAt0 m c ((⟨14, h14⟩ : Fin cfg0.N).val - 1) (Nat.lt_of_le_of_lt (Nat.sub_le _ _) (⟨14, h14⟩ : Fin cfg0.N).isLt)).2.2.2

/-! ## The write-back: one block, the whole array -/

theorem index3_zero : (fun a => win0_3.index (⟨14, h14⟩ : Fin cfg0.N) a * main_v3_0.ty.shape.size a) = fun _ => 0 :=
  funext fun a => by fin_cases a <;> decide +kernel
theorem index4_zero : (fun a => win0_4.index (⟨14, h14⟩ : Fin cfg0.N) a * main_v3_1.ty.shape.size a) = fun _ => 0 :=
  funext fun a => by fin_cases a <;> decide +kernel

/-- The one write-back of the first output, at the last point, writes the loss accumulator. -/
theorem flushed_loss (c : Dev nD) (t : Fin cfg0.N) (hf : (cfg0.win 3).flush t = true) :
    (dats m 0 c).flushed 3 t = ((cfg0.win 3).blk t).view.read (Elt F) (lossArr m c) := by
  have hN : cfg0.N = 15 := N_0
  have ht : t.val = 14 := by have := (flush0_3 t).mp hf; have := t.isLt; omega
  obtain rfl : t = (⟨14, h14⟩ : Fin cfg0.N) := Fin.ext ht
  show (cfg0.win 3).cut (grid0.coords (⟨14, h14⟩ : Fin cfg0.N)) ((dats m 0 c).after 3 (⟨14, h14⟩ : Fin cfg0.N)) = _
  rw [after0_3, (outputs_eq m c).1]
  exact (Memref.read_access_unit_zero (Elt F) main_v3_0 index3_zero (fun a => by rw [congrFun index3_zero a]; simp) (lossArr m c)).symm

/-- The one write-back of the second output writes the count accumulator. -/
theorem flushed_count (c : Dev nD) (t : Fin cfg0.N) (hf : (cfg0.win 4).flush t = true) :
    (dats m 0 c).flushed 4 t = ((cfg0.win 4).blk t).view.read (Elt F) (countArr m c) := by
  have hN : cfg0.N = 15 := N_0
  have ht : t.val = 14 := by have := (flush0_4 t).mp hf; have := t.isLt; omega
  obtain rfl : t = (⟨14, h14⟩ : Fin cfg0.N) := Fin.ext ht
  show (cfg0.win 4).cut (grid0.coords (⟨14, h14⟩ : Fin cfg0.N)) ((dats m 0 c).after 4 (⟨14, h14⟩ : Fin cfg0.N)) = _
  rw [after0_4, (outputs_eq m c).2]
  exact (Memref.read_access_unit_zero (Elt F) main_v3_1 index4_zero (fun a => by rw [congrFun index4_zero a]; simp) (countArr m c)).symm

/-- So the first result array ends holding the loss accumulator after the last point: its block covers the array. -/
theorem final_loss (c : Dev nD) : (dats m 0 c).arrAt 3 cfg0.N = lossArr m c :=
  (dats m 0 c).arrAt_eq_of_cover 3 (lossArr m c) (flushed_loss m c) fun i =>
    ⟨(⟨14, h14⟩ : Fin cfg0.N), (flush0_3 (⟨14, h14⟩ : Fin cfg0.N)).mpr rfl, by
      show i ∈ ((View.whole main_v3_0).slice (win0_3.rect (⟨14, h14⟩ : Fin cfg0.N))).set
      rw [View.set_slice_whole, Rect.mem_set_unit]
      intro a
      have i0 : (i 0 : Nat) < 1 := (i 0).isLt
      have i1 : (i 1 : Nat) < 1 := (i 1).isLt
      match a with
      | ⟨0, _⟩ => show win0_3.index (⟨14, h14⟩ : Fin cfg0.N) 0 * win0_3.size 0 ≤ (i 0 : Nat) ∧ (i 0 : Nat) < win0_3.index (⟨14, h14⟩ : Fin cfg0.N) 0 * win0_3.size 0 + win0_3.xsize (grid0.coords (⟨14, h14⟩ : Fin cfg0.N)) 0
                  rw [show win0_3.index (⟨14, h14⟩ : Fin cfg0.N) 0 * win0_3.size 0 = 0 from by decide +kernel, show win0_3.xsize (grid0.coords (⟨14, h14⟩ : Fin cfg0.N)) 0 = 1 from by decide +kernel]; omega
      | ⟨1, _⟩ => show win0_3.index (⟨14, h14⟩ : Fin cfg0.N) 1 * win0_3.size 1 ≤ (i 1 : Nat) ∧ (i 1 : Nat) < win0_3.index (⟨14, h14⟩ : Fin cfg0.N) 1 * win0_3.size 1 + win0_3.xsize (grid0.coords (⟨14, h14⟩ : Fin cfg0.N)) 1
                  rw [show win0_3.index (⟨14, h14⟩ : Fin cfg0.N) 1 * win0_3.size 1 = 0 from by decide +kernel, show win0_3.xsize (grid0.coords (⟨14, h14⟩ : Fin cfg0.N)) 1 = 1 from by decide +kernel]; omega⟩

/-- And the second the count accumulator. -/
theorem final_count (c : Dev nD) : (dats m 0 c).arrAt 4 cfg0.N = countArr m c :=
  (dats m 0 c).arrAt_eq_of_cover 4 (countArr m c) (flushed_count m c) fun i =>
    ⟨(⟨14, h14⟩ : Fin cfg0.N), (flush0_4 (⟨14, h14⟩ : Fin cfg0.N)).mpr rfl, by
      show i ∈ ((View.whole main_v3_1).slice (win0_4.rect (⟨14, h14⟩ : Fin cfg0.N))).set
      rw [View.set_slice_whole, Rect.mem_set_unit]
      intro a
      have i0 : (i 0 : Nat) < 1 := (i 0).isLt
      have i1 : (i 1 : Nat) < 1 := (i 1).isLt
      match a with
      | ⟨0, _⟩ => show win0_4.index (⟨14, h14⟩ : Fin cfg0.N) 0 * win0_4.size 0 ≤ (i 0 : Nat) ∧ (i 0 : Nat) < win0_4.index (⟨14, h14⟩ : Fin cfg0.N) 0 * win0_4.size 0 + win0_4.xsize (grid0.coords (⟨14, h14⟩ : Fin cfg0.N)) 0
                  rw [show win0_4.index (⟨14, h14⟩ : Fin cfg0.N) 0 * win0_4.size 0 = 0 from by decide +kernel, show win0_4.xsize (grid0.coords (⟨14, h14⟩ : Fin cfg0.N)) 0 = 1 from by decide +kernel]; omega
      | ⟨1, _⟩ => show win0_4.index (⟨14, h14⟩ : Fin cfg0.N) 1 * win0_4.size 1 ≤ (i 1 : Nat) ∧ (i 1 : Nat) < win0_4.index (⟨14, h14⟩ : Fin cfg0.N) 1 * win0_4.size 1 + win0_4.xsize (grid0.coords (⟨14, h14⟩ : Fin cfg0.N)) 1
                  rw [show win0_4.index (⟨14, h14⟩ : Fin cfg0.N) 1 * win0_4.size 1 = 0 from by decide +kernel, show win0_4.xsize (grid0.coords (⟨14, h14⟩ : Fin cfg0.N)) 1 = 1 from by decide +kernel]; omega⟩

/-! ## The host lines after the call -/

/-- "loss / count, or 0 / 1 when the count is 0.0", of the two 1×1 arrays re-laid as scalars: what the six host
    operations after the call compute. -/
def quotientOf (a : (⟨S1x1, .f32⟩ : BufTy).Contents (Elt F)) (b : (⟨S1x1, .f32⟩ : BufTy).Contents (Elt F)) :
    (⟨S_, .f32⟩ : BufTy).Contents (Elt F) :=
  Host.divf (F := F)
    (select (cmpf (F := F) .oeq (shapeCast S_ b shapeCasts_S1x1_S_) (constant (F := F) S_ .f32 0x00000000#32))
      (constant (F := F) S_ .f32 0x00000000#32) (shapeCast S_ a shapeCasts_S1x1_S_))
    (select (cmpf (F := F) .oeq (shapeCast S_ b shapeCasts_S1x1_S_) (constant (F := F) S_ .f32 0x00000000#32))
      (constant (F := F) S_ .f32 0x3F800000#32) (shapeCast S_ b shapeCasts_S1x1_S_))

/-- The host lines, run from ANY contents `W` of the buffers, leave the result at `quotientOf` of the two result
    arrays' contents. -/
theorem tail_eq (W : Valuation τ sig (Elt F)) :
    StableHlo.after (List.flatten [hostOps1, hostOps1_1, hostOps1_2, hostOps1_3, hostOps1_4]) W (Proc.devRef .tc main_v10)
      = quotientOf (W (Proc.devRef .tc main_v3_0)) (W (Proc.devRef .tc main_v3_1)) := by
  simp only [hostOps1, hostOps1_1, hostOps1_2, hostOps1_3, hostOps1_4, List.flatten_cons, List.flatten_nil, List.append_nil, List.cons_append, List.nil_append]
  after_results
  rfl

/-- The program's result is `quotientOf` of the two final accumulators. -/
theorem result_eq (c : Dev nD) :
    Pipeline.afterTail₀ cfgs (dats m) 0 (V0 m) [hostOps1, hostOps1_1, hostOps1_2, hostOps1_3, hostOps1_4] c main_v10
      = quotientOf (lossArr m c) (countArr m c) := by
  unfold Pipeline.afterTail₀
  rw [tail_eq]
  have e3 : Pipeline.withArrays (cfgs 0).spec c (V0 m c) (fun w => (dats m 0 c).arrAt w (cfgs 0).N) (Proc.devRef .tc main_v3_0) = lossArr m c :=
    (Pipeline.withArrays_arr spec0 launch0.win.arr_inj c _ _ 3).trans (final_loss m c)
  have e4 : Pipeline.withArrays (cfgs 0).spec c (V0 m c) (fun w => (dats m 0 c).arrAt w (cfgs 0).N) (Proc.devRef .tc main_v3_1) = countArr m c :=
    (Pipeline.withArrays_arr spec0 launch0.win.arr_inj c _ _ 4).trans (final_count m c)
  rw [e3, e4]

/-- The run, read: the result at `quotientOf` of the final accumulators, the arguments unchanged. -/
theorem run : θ_run defs (onTc (τ := τ) (main (F := F))) ⟨m, fun _ => 0, ρ⟩ fun r => ∀ c : Dev nD,
      r.2.mem ((c.tc : Thread nD τ).loc main_v10) = quotientOf (lossArr m c) (countArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.SumLaws.lean ====
/-
  The arithmetic both programs share, stated over plain index sets; no program is imported.

  * A sum over an array does not depend on how the array is laid out: re-laying it in row-major order under
    another shape (`sum_reshape`), or cutting its rows into `T` consecutive blocks of `R` rows and summing block
    by block (`sum_rowBlocks`), gives the same total in any commutative monoid — in particular over the extended
    reals, where no finiteness is needed for re-grouping a sum.
  * The two per-entry terms: `lossTerm o l0 l1 = |o − l0| · l1` and `countTerm l0 = 1` if `l0 ≠ 0`, else `0`.
  * Counting: the number of entries satisfying a predicate, taken as a sum of 0/1 floats (`sum_indicator`) and as a
    wrapping 32-bit sum of 0/1 words that stays below 2³² (`toNat_total_count`), is the same natural number.
  * The guarded quotient: with the count `n` known both as the real `n` and as a 32-bit word of value `n < 2³¹`,
    "loss / count, or 0 / 1 when the count is zero" is the same extended real whether the guard and the divisor are
    computed on floats or on integers converted afterwards (`guarded_quotient`).
-/
import Idealize.ShloMosaic.Lib.ValueIdx
import Idealize.ShloMosaic.Lib.IdealHost
import Idealize.ShloMosaic.PureOps.Ideal.Laws
import Idealize.ShloMosaic.Lib.StableHlo.Predicate

noncomputable section

open scoped BigOperators

namespace Cert.SumLaws

open Idealize.ShloMosaic Idealize.ShloMosaic.ValueIdx

/-! ## Sums do not see the layout -/

/-- Re-laying an array in row-major order under another shape permutes its entries, so any sum over them is unchanged. -/
theorem sum_reshape {M : Type*} [AddCommMonoid M] {s t : Shape} (h : t.numel = s.numel) (f : s.Idx → M) :
    ∑ j : t.Idx, f (Shape.reshapeEquiv h j) = ∑ i : s.Idx, f i :=
  Equiv.sum_comp (Shape.reshapeEquiv h) f

/-- Row `r` of block `t`, when `n = T · R` rows are cut into `T` consecutive blocks of `R` rows: row `t · R + r`. -/
def blockRow {T R n : ℕ} (hn : n = T * R) (t : Fin T) (r : Fin R) : Fin n :=
  ⟨t.val * R + r.val, by
    subst hn
    calc t.val * R + r.val < t.val * R + R := Nat.add_lt_add_left r.isLt _
      _ = (t.val + 1) * R := (Nat.succ_mul _ _).symm
      _ ≤ T * R := Nat.mul_le_mul_right _ t.isLt⟩

theorem blockRow_val {T R n : ℕ} (hn : n = T * R) (t : Fin T) (r : Fin R) : (blockRow hn t r).val = t.val * R + r.val := rfl

/-- A sum over an `n × C` array with `n = T · R` is the sum, over the `T` row blocks, of each `R × C` block's sum. -/
theorem sum_rowBlocks {M : Type*} [AddCommMonoid M] {T R C n : ℕ} (hn : n = T * R)
    (f : (⟨2, ![n, C]⟩ : Shape).Idx → M) :
    ∑ j, f j = ∑ t : Fin T, ∑ y : (⟨2, ![R, C]⟩ : Shape).Idx, f (ix2 (blockRow hn t (y 0)) (y 1)) := by
  subst hn
  calc ∑ j, f j = ∑ a : Fin (T * R), ∑ b : Fin C, f (ix2 a b) := sum_idx2 f
    _ = ∑ p : Fin T × Fin R, ∑ b : Fin C, f (ix2 (finProdFinEquiv p) b) :=
        (Equiv.sum_comp finProdFinEquiv fun a : Fin (T * R) => ∑ b : Fin C, f (ix2 a b)).symm
    _ = ∑ t : Fin T, ∑ r : Fin R, ∑ b : Fin C, f (ix2 (finProdFinEquiv (t, r)) b) := Fintype.sum_prod_type _
    _ = ∑ t : Fin T, ∑ y : (⟨2, ![R, C]⟩ : Shape).Idx, f (ix2 (blockRow rfl t (y 0)) (y 1)) := by
        refine Finset.sum_congr rfl fun t _ => ?_
        rw [sum_idx2 (fun y : (⟨2, ![R, C]⟩ : Shape).Idx => f (ix2 (blockRow rfl t (y 0)) (y 1)))]
        refine Finset.sum_congr rfl fun r _ => Finset.sum_congr rfl fun b _ => ?_
        have e : (finProdFinEquiv (t, r) : Fin (T * R)) = blockRow rfl t r :=
          Fin.ext (by rw [blockRow_val]; simp only [finProdFinEquiv_apply_val]; rw [Nat.mul_comm R t.val, Nat.add_comm])
        rw [e]
        rfl

/-! ## Counting -/

/-- The coercion of reals into the extended reals commutes with finite sums. -/
theorem coe_sum {ι : Type*} (S : Finset ι) (f : ι → ℝ) : ((∑ i ∈ S, f i : ℝ) : EReal) = ∑ i ∈ S, ((f i : ℝ) : EReal) := by
  induction S using Finset.cons_induction with
  | empty => simp
  | cons a S ha ih => rw [Finset.sum_cons, Finset.sum_cons, EReal.coe_add, ih]

/-- How many indices satisfy `p`. -/
def count {ι : Type*} [Fintype ι] (p : ι → Prop) [DecidablePred p] : ℕ := ∑ i, if p i then 1 else 0

theorem count_le_card {ι : Type*} [Fintype ι] (p : ι → Prop) [DecidablePred p] : count p ≤ Fintype.card ι := by
  unfold count
  calc (∑ i, if p i then 1 else 0) ≤ ∑ _i : ι, 1 := Finset.sum_le_sum fun i _ => by split_ifs <;> omega
    _ = Fintype.card ι := by simp

/-- The count is invariant under re-indexing by a bijection. -/
theorem count_comp {ι κ : Type*} [Fintype ι] [Fintype κ] (e : κ ≃ ι) (p : ι → Prop) [DecidablePred p] :
    count (fun k => p (e k)) = count p :=
  Equiv.sum_comp e fun i => if p i then 1 else 0

/-- Adding up one extended real per index, `1` where `p` holds and `0` elsewhere, gives the count. -/
theorem sum_indicator {ι : Type*} [Fintype ι] (p : ι → Prop) [DecidablePred p] :
    ∑ i, (((if p i then 1 else 0 : ℕ) : ℝ) : EReal) = ((count p : ℝ) : EReal) := by
  unfold count
  rw [Nat.cast_sum, coe_sum]

/-- The word a comparison "x ≠ 0" yields, widened to 32 bits and converted to a float at the ideal instance, is the
    indicator of `x ≠ 0`. Both spellings of "not equal" (ordered and unordered) are this one function there. -/
theorem sitofp_ne_zero (x : EReal) :
    FloatOps.sitofp (F := Ideal) .f32 ((Ideal.cmp .one x (Ideal.ofBits .f32 0x00000000#32)).setWidth 32)
      = (((if x ≠ 0 then 1 else 0 : ℕ) : ℝ) : EReal) := by
  rw [Ideal.ofBits_zero_f32]
  show (((((BitVec.ofBool (decide (x ≠ 0))).setWidth 32).toInt : ℤ) : ℝ) : EReal) = _
  by_cases h : x = 0
  · subst h; simp
  · have hd : decide (x ≠ 0) = true := by simpa using h
    rw [hd, if_pos h]
    have e1 : ((BitVec.ofBool true).setWidth 32).toInt = 1 := by decide
    rw [e1]
    norm_num

/-- One entry's contribution to the loss: |o − l0| · l1 on the extended reals. -/
def lossTerm (o l0 l1 : EReal) : EReal := max (o - l0) (-(o - l0)) * l1

/-- One entry's contribution to the count, as a float: 1 if l0 ≠ 0, else 0. -/
def countTerm (l0 : EReal) : EReal := (((if l0 ≠ 0 then 1 else 0 : ℕ) : ℝ) : EReal)

/-- Predicates that hold at the same indices have the same count. -/
theorem count_congr {ι : Type*} [Fintype ι] {p q : ι → Prop} [DecidablePred p] [DecidablePred q] (h : ∀ i, p i ↔ q i) :
    count p = count q :=
  Finset.sum_congr rfl fun i _ => if_congr (h i) rfl rfl

theorem cmp_une_eq_one (x y : EReal) : Ideal.cmp .une x y = Ideal.cmp .one x y := rfl

/-- The comparison bit is set exactly where the entry is nonzero. -/
theorem cmp_one_zero_iff (x : EReal) : Ideal.cmp .one x (Ideal.ofBits .f32 0x00000000#32) = 1#1 ↔ x ≠ 0 := by
  rw [Ideal.ofBits_zero_f32]
  show BitVec.ofBool (decide (x ≠ 0)) = 1#1 ↔ x ≠ 0
  rw [StableHlo.Predicate.ofBool_eq_one_iff, decide_eq_true_eq]

/-- A wrapping 32-bit sum of widened bits over EVERY index of an array of fewer than 2³² entries is the number of set
    bits. -/
theorem toNat_total_count {s t u : Shape} {axes : List (Fin s.rank)} (h : s.ReducesTo axes t) (ht : ∀ b, t.size b = 1)
    (hu : 0 < u.numel) (mask : IVec s 1) (hw : 1 < 32) (hs : Fintype.card s.Idx < 2 ^ 32) (j : t.Idx) :
    (Host.reduce IntOp.addi (extui 32 mask hw) (constantI u 32 0#32) h hu j).toNat = count fun i => mask i = 1#1 := by
  classical
  rw [Host.reduce_eq_fold]
  rw [Finset.filter_true_of_mem fun i _ => funext fun b => Fin.ext (by
    have := (h.drop i b).isLt; have := (j b).isLt; have := ht b; omega)]
  have hval : ∀ i, (extui 32 mask hw i).toNat = if mask i = 1#1 then 1 else 0 :=
    fun i => StableHlo.Predicate.toNat_setWidth_bit (mask i)
  have hsum : ∑ i : s.Idx, (extui 32 mask hw i).toNat = count fun i => mask i = 1#1 :=
    Finset.sum_congr rfl fun i _ => hval i
  show (Finset.fold IntOp.addi 0#32 (extui 32 mask hw) Finset.univ).toNat = _
  rw [StableHlo.Predicate.toNat_fold_addi _ _ (by rw [hsum]; exact lt_of_le_of_lt (count_le_card _) hs), hsum]

/-! ## The guarded quotient -/

/-- "loss / count, or 0 / 1 when the count is zero": the float route (compare the float count with 0.0, select 1.0 or
    the count) and the integer route (compare the word with 0, select the word 1 or the count, then convert) agree,
    given that the float count is the real `n` and the word's value is `n < 2³¹`. -/
theorem guarded_quotient (L Nf : EReal) (Ni : BitVec 32) (n : ℕ) (hn : n < 2 ^ 31) (hNf : Nf = ((n : ℝ) : EReal))
    (hNi : Ni.toNat = n) :
    FloatOps.hostDivf (F := Ideal) (φ := .f32)
        (Scalar.select (Ideal.cmp .oeq Nf (Ideal.ofBits .f32 0x00000000#32)) (Ideal.ofBits .f32 0x00000000#32) L)
        (Scalar.select (Ideal.cmp .oeq Nf (Ideal.ofBits .f32 0x00000000#32)) (Ideal.ofBits .f32 0x3F800000#32) Nf)
      = FloatOps.hostDivf (F := Ideal) (φ := .f32)
        (Scalar.select (IntOp.cmpi .eq Ni 0#32) (Ideal.ofBits .f32 0x00000000#32) L)
        (FloatOps.sitofp (F := Ideal) .f32 (Scalar.select (IntOp.cmpi .eq Ni 0#32) 1#32 Ni)) := by
  subst hNf
  rw [Ideal.ofBits_zero_f32, Ideal.ofBits_one_f32]
  have hNi' : Ni = BitVec.ofNat 32 n := by
    apply BitVec.eq_of_toNat_eq; rw [hNi, BitVec.toNat_ofNat]; exact (Nat.mod_eq_of_lt (by omega)).symm
  by_cases h0 : n = 0
  · subst h0
    have hNi0 : Ni = 0#32 := by simpa using hNi'
    subst hNi0
    have e1 : Ideal.cmp .oeq (((0 : ℕ) : ℝ) : EReal) 0 = 1#1 := by
      show BitVec.ofBool (decide ((((0 : ℕ) : ℝ) : EReal) = 0)) = 1#1
      simp
    have e2 : IntOp.cmpi .eq (0#32) 0#32 = 1#1 := by decide
    rw [e1, e2]
    simp only [select_one]
    show _ = Ideal.div 0 ((((1#32 : BitVec 32).toInt : ℤ) : ℝ) : EReal)
    have e3 : (1#32 : BitVec 32).toInt = 1 := by decide
    rw [e3]
    norm_num
  · have e1 : Ideal.cmp .oeq ((n : ℝ) : EReal) 0 = 0#1 := by
      show BitVec.ofBool (decide (((n : ℝ) : EReal) = 0)) = 0#1
      have : ¬ (((n : ℝ) : EReal) = 0) := by
        intro hh; have : (n : ℝ) = 0 := by exact_mod_cast hh
        exact h0 (by exact_mod_cast this)
      simp [h0]
    have e2 : IntOp.cmpi .eq Ni 0#32 = 0#1 := by
      apply eq_zero_of_ne_one
      rw [StableHlo.Predicate.cmpi_eq_iff]
      intro hh; rw [hh] at hNi; simp at hNi; exact h0 hNi.symm
    rw [e1, e2]
    simp only [select_zero]
    show _ = Ideal.div L (((Ni.toInt : ℤ) : ℝ) : EReal)
    rw [StableHlo.Predicate.toInt_eq_toNat_of_lt (by rw [hNi]; exact hn), hNi]
    norm_cast

end Cert.SumLaws

end
-- ==== Proof.Totals.lean ====
/-
  The kernel's two final accumulators at the ideal instance, as sums over the argument arrays.

  Read at the ideal instance, one grid point adds to the loss accumulator the sum over its row block of
  |output − label0| · label1, and to the count accumulator the number of nonzero label0 entries of the block (as a sum of
  0/1 floats). Over the fifteen points these are the sums over all 61440 × 256 entries of the re-laid arrays, hence over
  all 16·15·256·256 entries of the arguments: a sum does not see the layout.
-/
import proofs.«132748_j50663434224037_1_alg».proof.Proof.ResultArrays
import proofs.«132748_j50663434224037_1_alg».proof.Proof.SumLaws

noncomputable section

open scoped BigOperators
open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Accumulate Cert.KernelIdeal.Result Cert.SumLaws

theorem unit_sizes : ∀ b : Fin S1.rank, S1.size b = 1 := fun b => by fin_cases b; rfl

/-- A float lane-sum into a shape of unit axes, from the zero word, is the sum over every source index. -/
theorem total_sum {s t : Shape} {axes : List (Fin s.rank)} (src : FVec Ideal s .f32) (h : s.Reduces axes t)
    (ht : ∀ b, t.size b = 1) (hφ : FKind.Formats .f32) (hacc : (0x00000000#32 : BitVec 32) = 0x00000000#32) (j : t.Idx) :
    multiReduction (F := Ideal) .add axes t src 0x00000000#32 h hφ hacc j = ∑ i : s.Idx, src i :=
  Ideal.multiReduction_add_total src 0x00000000#32 h ht hφ hacc j

/-- The sum over a block re-laid with a leading unit axis is the sum over the block. -/
theorem sum_relaid (v : FVec Ideal S4096x256 .f32) :
    (∑ i, shapeCast S1x4096x256 v shapeCasts_S4096x256_S1x4096x256 i) = ∑ y : S4096x256.Idx, v y :=
  sum_reshape shapeCasts_S4096x256_S1x4096x256 v

theorem pay4_apply (x0 x1 x2 : Vec Ideal S4096x256 .f32) (acc : Vec Ideal S1x1 .f32) (j : S1x1.Idx) :
    k0_pay4 (F := Ideal) x0 x1 x2 acc j = acc j + ∑ y : S4096x256.Idx, lossTerm (x0 y) (x1 y) (x2 y) := by
  unfold k0_pay4 k0_pay3
  simp only [shapeCast_self]
  rw [addf_apply, broadcast_apply]
  unfold extractAt
  simp only [shapeCast]
  rw [total_sum _ _ unit_sizes, sum_relaid]
  exact congrArg (acc j + ·) (Finset.sum_congr rfl fun y _ => rfl)

theorem pay5_apply (x1 : Vec Ideal S4096x256 .f32) (acc : Vec Ideal S1x1 .f32) (j : S1x1.Idx) :
    k0_pay5 (F := Ideal) x1 acc j = acc j + ∑ y : S4096x256.Idx, countTerm (x1 y) := by
  unfold k0_pay5 k0_pay3
  simp only [shapeCast_self]
  rw [addf_apply, broadcast_apply]
  unfold extractAt
  simp only [shapeCast]
  rw [total_sum _ _ unit_sizes, sum_relaid]
  exact congrArg (acc j + ·) (Finset.sum_congr rfl fun y _ => sitofp_ne_zero (x1 y))

/-- The zero the first point stores into either accumulator. -/
theorem pay1_apply (j : S1x1.Idx) : k0_pay1 (F := Ideal) j = Ideal.ofBits .f32 0x00000000#32 := rfl
theorem pay2_apply (j : S1x1.Idx) : k0_pay2 (F := Ideal) j = Ideal.ofBits .f32 0x00000000#32 := rfl

/-! ## The accumulators after point `n`, in closed form -/

variable (m : (ℓ : Loc nD τ sig) → Buf (Elt Ideal) ℓ)

/-- Row block `t`'s contribution to the loss, and to the count. -/
def blockLoss (c : Dev nD) (t : Fin cfg0.N) : EReal :=
  ∑ y : S4096x256.Idx, lossTerm (outBlk m c t y) (lab0Blk m c t y) (lab1Blk m c t y)
def blockCount (c : Dev nD) (t : Fin cfg0.N) : EReal := ∑ y : S4096x256.Idx, countTerm (lab0Blk m c t y)

/-- The same over every natural number (zero past the grid), so that partial sums run over `Finset.range`. -/
def blockLossN (c : Dev nD) (k : ℕ) : EReal := if h : k < cfg0.N then blockLoss m c ⟨k, h⟩ else 0
def blockCountN (c : Dev nD) (k : ℕ) : EReal := if h : k < cfg0.N then blockCount m c ⟨k, h⟩ else 0

/-- The loss accumulator after point `n` is the stored zero plus the contributions of blocks `0 … n`. -/
theorem lossAfter_apply (c : Dev nD) : ∀ (n : ℕ) (h : n < cfg0.N) (j : S1x1.Idx),
    lossAfter m c n h j = Ideal.ofBits .f32 0x00000000#32 + ∑ k ∈ Finset.range (n + 1), blockLossN m c k
  | 0, h, j => by
    show k0_pay4 (F := Ideal) (outBlk m c ⟨0, h⟩) (lab0Blk m c ⟨0, h⟩) (lab1Blk m c ⟨0, h⟩) (k0_pay1 (F := Ideal)) j = _
    rw [pay4_apply, pay1_apply, Finset.sum_range_one, show blockLossN m c 0 = blockLoss m c ⟨0, h⟩ from dif_pos h, blockLoss]
  | n + 1, h, j => by
    show k0_pay4 (F := Ideal) (outBlk m c ⟨n + 1, h⟩) (lab0Blk m c ⟨n + 1, h⟩) (lab1Blk m c ⟨n + 1, h⟩) (lossAfter m c n (Nat.lt_of_succ_lt h)) j = _
    rw [pay4_apply, lossAfter_apply c n (Nat.lt_of_succ_lt h) j, Finset.sum_range_succ _ (n + 1), add_assoc,
      show blockLossN m c (n + 1) = blockLoss m c ⟨n + 1, h⟩ from dif_pos h, blockLoss]

/-- The count accumulator likewise. -/
theorem countAfter_apply (c : Dev nD) : ∀ (n : ℕ) (h : n < cfg0.N) (j : S1x1.Idx),
    countAfter m c n h j = Ideal.ofBits .f32 0x00000000#32 + ∑ k ∈ Finset.range (n + 1), blockCountN m c k
  | 0, h, j => by
    show k0_pay5 (F := Ideal) (lab0Blk m c ⟨0, h⟩) (k0_pay2 (F := Ideal)) j = _
    rw [pay5_apply, pay2_apply, Finset.sum_range_one, show blockCountN m c 0 = blockCount m c ⟨0, h⟩ from dif_pos h, blockCount]
  | n + 1, h, j => by
    show k0_pay5 (F := Ideal) (lab0Blk m c ⟨n + 1, h⟩) (countAfter m c n (Nat.lt_of_succ_lt h)) j = _
    rw [pay5_apply, countAfter_apply c n (Nat.lt_of_succ_lt h) j, Finset.sum_range_succ _ (n + 1), add_assoc,
      show blockCountN m c (n + 1) = blockCount m c ⟨n + 1, h⟩ from dif_pos h, blockCount]

/-- Summing a per-block quantity over the points `0 … 14` is summing it over the grid. -/
theorem sum_range_grid (f : Fin cfg0.N → EReal) :
    ∑ k ∈ Finset.range (14 + 1), (if h : k < cfg0.N then f ⟨k, h⟩ else 0) = ∑ t : Fin cfg0.N, f t := by
  have hN : cfg0.N = 15 := N_0
  rw [show (14 + 1 : ℕ) = cfg0.N from hN.symm, Finset.sum_range]
  exact Finset.sum_congr rfl fun t _ => dif_pos t.isLt

/-! ## Blocks of the re-laid arrays, and the re-laid arrays, as entries of the arguments -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem rows_eq : (61440 : ℕ) = 15 * 4096 := by norm_num

/-- A grid point as a block number below 15. -/
abbrev blockNo (t : Fin cfg0.N) : Fin 15 := Fin.cast N_0 t

/-- The entry of the 61440 × 256 arrays that entry `y` of row block `t` is: row `4096 · t + y₀`, column `y₁`. -/
abbrev inBlock (t : Fin 15) (y : S4096x256.Idx) : S61440x256.Idx := ix2 (blockRow rows_eq t (y 0)) (y 1)

theorem outBlk_apply (c : Dev nD) (t : Fin cfg0.N) (y : S4096x256.Idx) :
    outBlk m c t y = V m c main_v0 (inBlock (blockNo t) y) := by
  unfold outBlk iblk
  rw [View.read_apply]
  show V m c main_v0 (((cfg0.win 0).blk t).view.emb y) = V m c main_v0 (inBlock (blockNo t) y)
  refine congrArg (V m c main_v0) (funext fun a => Fin.ext ?_)
  match a with
  | ⟨0, _⟩ => show win0_0.index t 0 * 4096 + 1 * (y 0).val = t.val * 4096 + (y 0).val; rw [(idx0 t).1]; omega
  | ⟨1, _⟩ => show win0_0.index t 1 * 256 + 1 * (y 1).val = (y 1).val; rw [(idx0 t).2]; omega

theorem lab0Blk_apply (c : Dev nD) (t : Fin cfg0.N) (y : S4096x256.Idx) :
    lab0Blk m c t y = V m c main_v1 (inBlock (blockNo t) y) := by
  unfold lab0Blk iblk
  rw [View.read_apply]
  show V m c main_v1 (((cfg0.win 1).blk t).view.emb y) = V m c main_v1 (inBlock (blockNo t) y)
  refine congrArg (V m c main_v1) (funext fun a => Fin.ext ?_)
  match a with
  | ⟨0, _⟩ => show win0_1.index t 0 * 4096 + 1 * (y 0).val = t.val * 4096 + (y 0).val; rw [(idx1 t).1]; omega
  | ⟨1, _⟩ => show win0_1.index t 1 * 256 + 1 * (y 1).val = (y 1).val; rw [(idx1 t).2]; omega

theorem lab1Blk_apply (c : Dev nD) (t : Fin cfg0.N) (y : S4096x256.Idx) :
    lab1Blk m c t y = V m c main_v2 (inBlock (blockNo t) y) := by
  unfold lab1Blk iblk
  rw [View.read_apply]
  show V m c main_v2 (((cfg0.win 2).blk t).view.emb y) = V m c main_v2 (inBlock (blockNo t) y)
  refine congrArg (V m c main_v2) (funext fun a => Fin.ext ?_)
  match a with
  | ⟨0, _⟩ => show win0_2.index t 0 * 4096 + 1 * (y 0).val = t.val * 4096 + (y 0).val; rw [(idx2 t).1]; omega
  | ⟨1, _⟩ => show win0_2.index t 1 * 256 + 1 * (y 1).val = (y 1).val; rw [(idx2 t).2]; omega

/-- The three arrays the call reads are the arguments re-laid as 61440 × 256. -/
theorem V_out (c : Dev nD) : (V m c main_v0 : S61440x256.Idx → EReal)
    = shapeCast S61440x256 (m ((c : Thread nD τ).loc main_arg0)) shapeCasts_S16x15x256x256_S61440x256 := by
  show StableHlo.after hostOps0 (fun b => m (c, b)) (Proc.devRef .tc main_v0) = _
  after_results
  rfl
theorem V_lab0 (c : Dev nD) : (V m c main_v1 : S61440x256.Idx → EReal)
    = shapeCast S61440x256 (m ((c : Thread nD τ).loc main_arg1)) shapeCasts_S16x15x256x256_S61440x256 := by
  show StableHlo.after hostOps0 (fun b => m (c, b)) (Proc.devRef .tc main_v1) = _
  after_results
  rfl
theorem V_lab1 (c : Dev nD) : (V m c main_v2 : S61440x256.Idx → EReal)
    = shapeCast S61440x256 (m ((c : Thread nD τ).loc main_arg2)) shapeCasts_S16x15x256x256_S61440x256 := by
  show StableHlo.after hostOps0 (fun b => m (c, b)) (Proc.devRef .tc main_v2) = _
  after_results
  rfl

/-! ## The totals -/

/-- The three arguments on device `c`. -/
abbrev argOut (c : Dev nD) : S16x15x256x256.Idx → EReal := m ((c : Thread nD τ).loc main_arg0)
abbrev argLab0 (c : Dev nD) : S16x15x256x256.Idx → EReal := m ((c : Thread nD τ).loc main_arg1)
abbrev argLab1 (c : Dev nD) : S16x15x256x256.Idx → EReal := m ((c : Thread nD τ).loc main_arg2)

theorem blockLoss_eq (c : Dev nD) (t : Fin cfg0.N) :
    blockLoss m c t = ∑ y : S4096x256.Idx, lossTerm (V m c main_v0 (inBlock (blockNo t) y)) (V m c main_v1 (inBlock (blockNo t) y)) (V m c main_v2 (inBlock (blockNo t) y)) := by
  unfold blockLoss
  exact Finset.sum_congr rfl fun y _ => by rw [outBlk_apply, lab0Blk_apply, lab1Blk_apply]

theorem blockCount_eq (c : Dev nD) (t : Fin cfg0.N) :
    blockCount m c t = ∑ y : S4096x256.Idx, countTerm (V m c main_v1 (inBlock (blockNo t) y)) := by
  unfold blockCount
  exact Finset.sum_congr rfl fun y _ => by rw [lab0Blk_apply]

/-- The fifteen blocks' loss contributions add up to the sum over every entry of the arguments. -/
theorem sum_blockLoss (c : Dev nD) :
    ∑ t : Fin cfg0.N, blockLoss m c t
      = ∑ i : S16x15x256x256.Idx, lossTerm (argOut m c i) (argLab0 m c i) (argLab1 m c i) := by
  calc ∑ t : Fin cfg0.N, blockLoss m c t
      = ∑ t : Fin cfg0.N, ∑ y : S4096x256.Idx, lossTerm (V m c main_v0 (inBlock (blockNo t) y)) (V m c main_v1 (inBlock (blockNo t) y)) (V m c main_v2 (inBlock (blockNo t) y)) :=
        Finset.sum_congr rfl fun t _ => blockLoss_eq m c t
    _ = ∑ t' : Fin 15, ∑ y : S4096x256.Idx, lossTerm (V m c main_v0 (inBlock t' y)) (V m c main_v1 (inBlock t' y)) (V m c main_v2 (inBlock t' y)) :=
        Equiv.sum_comp (finCongr N_0) (fun t' : Fin 15 => ∑ y : S4096x256.Idx, lossTerm (V m c main_v0 (inBlock t' y)) (V m c main_v1 (inBlock t' y)) (V m c main_v2 (inBlock t' y)))
    _ = ∑ jj : S61440x256.Idx, lossTerm (V m c main_v0 jj) (V m c main_v1 jj) (V m c main_v2 jj) :=
        (sum_rowBlocks rows_eq (fun jj : S61440x256.Idx => lossTerm (V m c main_v0 jj) (V m c main_v1 jj) (V m c main_v2 jj))).symm
    _ = ∑ i : S16x15x256x256.Idx, lossTerm (argOut m c i) (argLab0 m c i) (argLab1 m c i) := by
        rw [V_out, V_lab0, V_lab1]
        exact sum_reshape shapeCasts_S16x15x256x256_S61440x256
          (fun i => lossTerm (argOut m c i) (argLab0 m c i) (argLab1 m c i))

/-- The fifteen blocks' counts add up to the number of nonzero entries of label0. -/
theorem sum_blockCount (c : Dev nD) :
    ∑ t : Fin cfg0.N, blockCount m c t = ((count (fun i : S16x15x256x256.Idx => argLab0 m c i ≠ 0) : ℝ) : EReal) := by
  calc ∑ t : Fin cfg0.N, blockCount m c t
      = ∑ t : Fin cfg0.N, ∑ y : S4096x256.Idx, countTerm (V m c main_v1 (inBlock (blockNo t) y)) :=
        Finset.sum_congr rfl fun t _ => blockCount_eq m c t
    _ = ∑ t' : Fin 15, ∑ y : S4096x256.Idx, countTerm (V m c main_v1 (inBlock t' y)) :=
        Equiv.sum_comp (finCongr N_0) (fun t' : Fin 15 => ∑ y : S4096x256.Idx, countTerm (V m c main_v1 (inBlock t' y)))
    _ = ∑ jj : S61440x256.Idx, countTerm (V m c main_v1 jj) :=
        (sum_rowBlocks rows_eq (fun jj : S61440x256.Idx => countTerm (V m c main_v1 jj))).symm
    _ = ∑ i : S16x15x256x256.Idx, countTerm (argLab0 m c i) := by
        rw [V_lab0]
        exact sum_reshape shapeCasts_S16x15x256x256_S61440x256 (fun i => countTerm (argLab0 m c i))
    _ = ((count (fun i : S16x15x256x256.Idx => argLab0 m c i ≠ 0) : ℝ) : EReal) :=
        sum_indicator (fun i : S16x15x256x256.Idx => argLab0 m c i ≠ 0)

/-- The first result array's one entry: the stored zero plus the sum of |output − label0| · label1 over every entry. -/
theorem lossArr_apply (c : Dev nD) (j : S1x1.Idx) :
    lossArr m c j = Ideal.ofBits .f32 0x00000000#32
      + ∑ i : S16x15x256x256.Idx, lossTerm (argOut m c i) (argLab0 m c i) (argLab1 m c i) := by
  show lossAfter m c 14 h14 j = _
  rw [lossAfter_apply m c 14 h14 j,
    show (∑ k ∈ Finset.range (14 + 1), blockLossN m c k) = ∑ t : Fin cfg0.N, blockLoss m c t from sum_range_grid (blockLoss m c),
    sum_blockLoss]

/-- The second result array's one entry: the stored zero plus the number of nonzero label0 entries. -/
theorem countArr_apply (c : Dev nD) (j : S1x1.Idx) :
    countArr m c j = Ideal.ofBits .f32 0x00000000#32
      + ((count (fun i : S16x15x256x256.Idx => argLab0 m c i ≠ 0) : ℝ) : EReal) := by
  show countAfter m c 14 h14 j = _
  rw [countAfter_apply m c 14 h14 j,
    show (∑ k ∈ Finset.range (14 + 1), blockCountN m c k) = ∑ t : Fin cfg0.N, blockCount m c t from sum_range_grid (blockCount m c),
    sum_blockCount]

end Cert.KernelIdeal.Totals

end
-- ==== Proof.RefValue.lean ====
/-
  The reference's result at the ideal instance, as a function of the same two totals.

  The reference sums |output − label0| · label1 over all entries from a zero (one host reduction), counts the nonzero
  label0 entries as a 32-bit integer sum of widened comparison bits (15,728,640 entries: the sum does not wrap), and
  forms "loss / count, or 0 / 1 when the count is 0" with the guard and the divisor on the integer count, converted to
  a float afterwards.
-/
import proofs.«132748_j50663434224037_1_alg».proof.Proof.RefRun
import proofs.«132748_j50663434224037_1_alg».proof.Proof.SumLaws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.SumLaws

/-- The array has 15,728,640 entries: fewer than 2³¹. -/
theorem card_lt : Fintype.card S16x15x256x256.Idx < 2 ^ 31 := by
  rw [Shape.card_idx]; decide

/-- The host's float sum over every axis, from the zero, read at its one index. -/
theorem reduceAdd_apply (x : FVec Ideal S16x15x256x256 .f32) (i : S_.Idx) :
    Host.reduceAdd (F := Ideal) x (constant (F := Ideal) S_ .f32 0x00000000#32) reducesTo_S16x15x256x256_S_d0_1_2_3 h_S_ i
      = Ideal.ofBits .f32 0x00000000#32 + ∑ j : S16x15x256x256.Idx, x j := by
  simp only [Host.reduceAdd, Ideal.hostReduceAdd_def]
  exact Ideal.hostReduceAdd_total reducesTo_S16x15x256x256_S_d0_1_2_3 (fun b => b.elim0) x _ i

/-- The comparison mask of label0 against the broadcast zero. -/
abbrev nzMask (a1 : FVec Ideal S16x15x256x256 .f32) : IVec S16x15x256x256 1 :=
  cmpf (F := Ideal) .une a1 (broadcastInDim S16x15x256x256 ![] bcast_S_S16x15x256x256 (constant (F := Ideal) S_ .f32 0x00000000#32))

/-- The integer count, as the reference computes it. -/
abbrev intCount (a1 : FVec Ideal S16x15x256x256 .f32) : IVec S_ 32 :=
  Host.reduce IntOp.addi (extui 32 (nzMask a1) natLt_1_32) (constantI S_ 32 0#32) reducesTo_S16x15x256x256_S_d0_1_2_3 h_S_

/-- Its value is the number of nonzero entries of label0. -/
theorem intCount_toNat (a1 : FVec Ideal S16x15x256x256 .f32) (i : S_.Idx) :
    (intCount a1 i).toNat = count fun j : S16x15x256x256.Idx => a1 j ≠ 0 := by
  have h := toNat_total_count reducesTo_S16x15x256x256_S_d0_1_2_3 (fun b => b.elim0) h_S_ (nzMask a1) natLt_1_32
    (lt_trans card_lt (by norm_num)) i
  rw [h]
  exact count_congr fun j => cmp_one_zero_iff (a1 j)

/-- The loss sum, as the reference computes it, is the zero plus the sum of the per-entry terms. -/
theorem lossSum_apply (a0 a1 a2 : FVec Ideal S16x15x256x256 .f32) (i : S_.Idx) :
    Host.reduceAdd (F := Ideal) (mulf (Host.absf (subf a0 a1)) a2) (constant (F := Ideal) S_ .f32 0x00000000#32)
        reducesTo_S16x15x256x256_S_d0_1_2_3 h_S_ i
      = Ideal.ofBits .f32 0x00000000#32 + ∑ j : S16x15x256x256.Idx, lossTerm (a0 j) (a1 j) (a2 j) := by
  rw [reduceAdd_apply]
  exact congrArg (Ideal.ofBits .f32 0x00000000#32 + ·) (Finset.sum_congr rfl fun j _ => rfl)

/-- The reference's result term, of the three arguments. -/
def refTerm (a0 a1 a2 : FVec Ideal S16x15x256x256 .f32) : FVec Ideal S_ .f32 :=
  Host.divf (F := Ideal)
    (select (cmpi .eq (intCount a1) (constantI S_ 32 0#32)) (constant (F := Ideal) S_ .f32 0x00000000#32)
      (Host.reduceAdd (F := Ideal) (mulf (Host.absf (subf a0 a1)) a2) (constant (F := Ideal) S_ .f32 0x00000000#32)
        reducesTo_S16x15x256x256_S_d0_1_2_3 h_S_))
    (sitofp (F := Ideal) .f32 (select (cmpi .eq (intCount a1) (constantI S_ 32 0#32)) (id (constantI S_ 32 1#32)) (intCount a1)))

/-- The reference's result at its one index: the guarded quotient on the integer route. -/
theorem refTerm_apply (a0 a1 a2 : FVec Ideal S16x15x256x256 .f32) (i : S_.Idx) :
    refTerm a0 a1 a2 i
      = FloatOps.hostDivf (F := Ideal) (φ := .f32)
          (Scalar.select (IntOp.cmpi .eq (intCount a1 i) 0#32) (Ideal.ofBits .f32 0x00000000#32)
            (Ideal.ofBits .f32 0x00000000#32 + ∑ j : S16x15x256x256.Idx, lossTerm (a0 j) (a1 j) (a2 j)))
          (FloatOps.sitofp (F := Ideal) .f32 (Scalar.select (IntOp.cmpi .eq (intCount a1 i) 0#32) 1#32 (intCount a1 i))) := by
  rw [← lossSum_apply a0 a1 a2 i]
  rfl

end Cert.ReferenceIdeal.RefValue

end
-- ==== Proof.Agree.lean ====
/-
  The two programs return the same extended real.

  The kernel's result entry is the guarded quotient on the FLOAT route: with `L = 0 + Σ |output − label0| · label1` and
  `N = 0 + n`, `n` the number of nonzero label0 entries as a real, it is `(N = 0 ? 0 : L) / (N = 0 ? 1 : N)`. The
  reference's is the same on the INTEGER route: the guard and the divisor from the 32-bit count, whose value is `n`
  (below 2³¹), converted to a float afterwards. The two routes agree (`SumLaws.guarded_quotient`).
-/
import proofs.«132748_j50663434224037_1_alg».proof.Proof.Totals
import proofs.«132748_j50663434224037_1_alg».proof.Proof.RefValue

noncomputable section

open scoped BigOperators
open Idealize.ShloMosaic Idealize.ShloMosaic.TcCoe Idealize.SL.Sem Idealize.ShloMosaic.ValueIdx

namespace Cert.Agree

open Cert.SumLaws Cert.KernelIdeal.Result Cert.KernelIdeal.Totals Cert.ReferenceIdeal.RefValue

variable (m : (ℓ : Loc Cert.KernelIdeal.nD Cert.KernelIdeal.τ Cert.KernelIdeal.sig) → Buf (Elt Ideal) ℓ)

/-- The number of nonzero entries of label0 on device `c`. -/
abbrev nnz (c : Dev Cert.KernelIdeal.nD) : ℕ := count fun i : Cert.KernelIdeal.S16x15x256x256.Idx => argLab0 m c i ≠ 0

/-- The sum of the loss terms over every entry, on device `c`. -/
abbrev lossTotal (c : Dev Cert.KernelIdeal.nD) : EReal :=
  ∑ i : Cert.KernelIdeal.S16x15x256x256.Idx, lossTerm (argOut m c i) (argLab0 m c i) (argLab1 m c i)

/-- The host lines' quotient at its one index, of ANY two 1×1 arrays. -/
theorem quotientOf_apply (a b : (⟨Cert.KernelIdeal.S1x1, .f32⟩ : BufTy).Contents (Elt Ideal)) (i : Cert.KernelIdeal.S_.Idx) :
    quotientOf (F := Ideal) a b i
      = FloatOps.hostDivf (F := Ideal) (φ := .f32)
          (Scalar.select (Ideal.cmp .oeq (b (Shape.reshapeEquiv Cert.KernelIdeal.Gen.shapeCasts_S1x1_S_ i)) (Ideal.ofBits .f32 0x00000000#32))
            (Ideal.ofBits .f32 0x00000000#32) (a (Shape.reshapeEquiv Cert.KernelIdeal.Gen.shapeCasts_S1x1_S_ i)))
          (Scalar.select (Ideal.cmp .oeq (b (Shape.reshapeEquiv Cert.KernelIdeal.Gen.shapeCasts_S1x1_S_ i)) (Ideal.ofBits .f32 0x00000000#32))
            (Ideal.ofBits .f32 0x3F800000#32) (b (Shape.reshapeEquiv Cert.KernelIdeal.Gen.shapeCasts_S1x1_S_ i))) := rfl

/-- The kernel's result at its one index: the guarded quotient on the float route. -/
theorem kernel_apply (c : Dev Cert.KernelIdeal.nD) (i : Cert.KernelIdeal.S_.Idx) :
    quotientOf (F := Ideal) (lossArr m c) (countArr m c) i
      = FloatOps.hostDivf (F := Ideal) (φ := .f32)
          (Scalar.select (Ideal.cmp .oeq (Ideal.ofBits .f32 0x00000000#32 + ((nnz m c : ℝ) : EReal)) (Ideal.ofBits .f32 0x00000000#32))
            (Ideal.ofBits .f32 0x00000000#32) (Ideal.ofBits .f32 0x00000000#32 + lossTotal m c))
          (Scalar.select (Ideal.cmp .oeq (Ideal.ofBits .f32 0x00000000#32 + ((nnz m c : ℝ) : EReal)) (Ideal.ofBits .f32 0x00000000#32))
            (Ideal.ofBits .f32 0x3F800000#32) (Ideal.ofBits .f32 0x00000000#32 + ((nnz m c : ℝ) : EReal))) := by
  rw [quotientOf_apply, lossArr_apply, countArr_apply]

/-- The kernel's result is the reference's term of the same arguments. -/
theorem agree (c : Dev Cert.KernelIdeal.nD) :
    quotientOf (F := Ideal) (lossArr m c) (countArr m c)
      = refTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  rw [kernel_apply, refTerm_apply]
  exact guarded_quotient (Ideal.ofBits .f32 0x00000000#32 + lossTotal m c)
    (Ideal.ofBits .f32 0x00000000#32 + ((nnz m c : ℝ) : EReal))
    (intCount (m ((c.tc : Thread Cert.KernelIdeal.nD Cert.KernelIdeal.τ).loc Cert.KernelIdeal.main_arg1)) i) (nnz m c)
    (lt_of_le_of_lt (count_le_card _) card_lt)
    (by rw [Ideal.ofBits_zero_f32, zero_add])
    (intCount_toNat _ i)

end Cert.Agree

end
-- ==== Proof.lean ====
/-
  The certificate of a masked L1 loss kernel against its jnp reference, over the extended reals.

  Both programs compute  (n = 0 ? 0 : Σ |output − label0| · label1) / (n = 0 ? 1 : n),  n the number of nonzero entries
  of label0, over arrays of 16 · 15 · 256 · 256 entries. The kernel re-lays each argument as 61440 × 256, walks fifteen
  row blocks of 4096 rows keeping the loss sum and the count (as a float) in two 1 × 1 accumulators, copies them out at
  the last block, and forms the guarded quotient on the host from the float count. The reference takes both sums in one
  reduction each over the four axes, the count as a 32-bit integer, and forms the quotient from the integer count.
  Equal at the ideal instance because (i) a sum over the extended reals does not depend on how the array is laid out
  or cut into blocks (no finiteness is needed: only the grouping of one sum changes), (ii) the float count and the
  integer count are the same natural number, below 2³¹, and (iii) the guard "count = 0" and the divisor then agree.

  Proof/CaseValues.lean   what each control case of the kernel body leaves in the accumulators and outputs
  Proof/Accumulate.lean   the accumulators point by point (induction over the grid)
  Proof/ResultArrays.lean the result arrays, the host lines after the call, the kernel's run
  Proof/SumLaws.lean      the arithmetic: sums under re-laying and blocking, counting, the guarded quotient
  Proof/Totals.lean       the accumulators at the ideal instance as sums over the arguments
  Proof/RefRun.lean       the reference's run
  Proof/RefValue.lean     the reference's result at the ideal instance
  Proof/Agree.lean        the two results are equal
-/
import proofs.«132748_j50663434224037_1_alg».proof.Defs
import proofs.«132748_j50663434224037_1_alg».proof.Proof.Gen.Kernel
import proofs.«132748_j50663434224037_1_alg».proof.Proof.Gen.Kernel.Frame
import proofs.«132748_j50663434224037_1_alg».proof.Proof.Gen.KernelIdeal
import proofs.«132748_j50663434224037_1_alg».proof.Proof.Gen.KernelIdeal.Frame
import proofs.«132748_j50663434224037_1_alg».proof.Proof.Gen.ReferenceIdeal
import proofs.«132748_j50663434224037_1_alg».proof.Proof.Gen.Pre_finite_inputs
import proofs.«132748_j50663434224037_1_alg».proof.Proof.Agree
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunPatched.run (F := Ideal) m ρ)

/-- The ideal pass rewrote nothing. -/
theorem preserves : Cert.preserves_Kernel_KernelIdeal := trivial

/-- From memories agreeing on the arguments, the kernel ends at the guarded quotient of its two accumulators and the
    reference at its term of the same arguments: the same extended real. -/
theorem algebraic : Cert.algebraic_KernelIdeal_ReferenceIdeal := by
  intro m ρ m' ρ' _ hagree
  refine ⟨fun c => Cert.KernelIdeal.Result.quotientOf (F := Ideal) (Cert.KernelIdeal.Result.lossArr m c) (Cert.KernelIdeal.Result.countArr m c),
    Cert.KernelIdeal.Result.run (F := Ideal) m ρ, ?_⟩
  refine (θ_run Cert.ReferenceIdeal.defs _ _).mono (fun _ h c => ⟨(h c).1.trans ?_, (h c).2⟩)
    (Cert.ReferenceIdeal.RunPatched.run (F := Ideal) m' ρ')
  rw [(hagree c).1, (hagree c).2.1, (hagree c).2.2]
  exact (Cert.Agree.agree m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
